-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x128 : Shape := ⟨3, ![16, 256, 128]⟩
abbrev S_ : Shape := ⟨0, ![]⟩

class Facts : Prop where
  bcast_S_S16x256x128 : S_.BroadcastsInDim S16x256x128 (![] : Fin 0 → Fin S16x256x128.rank)
  reducesTo_S16x256x128_S_d0_1_2 : S16x256x128.ReducesTo [0, 1, 2] S_
  h_S_ : 0 < S_.numel

variable [Facts]

def fn {F : FTy → Type} [FloatOps F] (main_arg0 : FVec F S16x256x128 .f32) (main_arg1 : FVec F S16x256x128 .f32) : IVec S_ 1 :=
  let main_v0 : FVec F S16x256x128 .f32 := Host.absf main_arg0
  let main_cst : FVec F S_ .f32 := constant S_ .f32 0x7F800000#32
  let main_v1 : FVec F S16x256x128 .f32 := broadcastInDim S16x256x128 ![] bcast_S_S16x256x128 main_cst
  let main_v2 : IVec S16x256x128 1 := cmpf .olt main_v0 main_v1
  let main_c : IVec S_ 1 := constantI S_ 1 1#1
  let main_v3 : IVec S_ 1 := (fun x v => Host.reduce IntOp.andi x v reducesTo_S16x256x128_S_d0_1_2 h_S_) main_v2 main_c
  let main_v4 : FVec F S16x256x128 .f32 := Host.absf main_arg1
  let main_cst_0 : FVec F S_ .f32 := constant S_ .f32 0x7F800000#32
  let main_v5 : FVec F S16x256x128 .f32 := broadcastInDim S16x256x128 ![] bcast_S_S16x256x128 main_cst_0
  let main_v6 : IVec S16x256x128 1 := cmpf .olt main_v4 main_v5
  let main_c_1 : IVec S_ 1 := constantI S_ 1 1#1
  let main_v7 : IVec S_ 1 := (fun x v => Host.reduce IntOp.andi x v reducesTo_S16x256x128_S_d0_1_2 h_S_) main_v6 main_c_1
  let main_v8 : IVec S_ 1 := andi main_v3 main_v7
  main_v8
-- ==== Kernel.lean ====
abbrev S16x256x128 : Shape := ⟨3, ![16, 256, 128]⟩
abbrev S16x1x128 : Shape := ⟨3, ![16, 1, 128]⟩
abbrev S8x256x128 : Shape := ⟨3, ![8, 256, 128]⟩
abbrev S8x1x128 : Shape := ⟨3, ![8, 1, 128]⟩
abbrev S1x256x128 : Shape := ⟨3, ![1, 256, 128]⟩
abbrev S256x128 : Shape := ⟨2, ![256, 128]⟩
abbrev S1x1 : Shape := ⟨2, ![1, 1]⟩
abbrev S64x128 : Shape := ⟨2, ![64, 128]⟩
abbrev S64x1x128 : Shape := ⟨3, ![64, 1, 128]⟩
abbrev S64x256x128 : Shape := ⟨3, ![64, 256, 128]⟩
abbrev S64x256 : Shape := ⟨2, ![64, 256]⟩
abbrev S64 : Shape := ⟨1, ![64]⟩
abbrev S64x1 : Shape := ⟨2, ![64, 1]⟩
abbrev S1 : Shape := ⟨1, ![1]⟩
abbrev S1x128 : Shape := ⟨2, ![1, 128]⟩
abbrev S1x1x128 : Shape := ⟨3, ![1, 1, 128]⟩
abbrev S16x1x1 : Shape := ⟨3, ![16, 1, 1]⟩
abbrev S16 : Shape := ⟨1, ![16]⟩

abbrev nBuf : Space → Nat
  | .hbm => 5
  | .vmem => 6
  | .smem => 0
  | _ => 0

abbrev bufTy : (tb : Table) → Fin (tcTables nBuf tb) → BufTy
  | .hbm, ⟨0, _⟩ => ⟨S16x256x128, .f32⟩
  | .hbm, ⟨1, _⟩ => ⟨S16x256x128, .f32⟩
  | .hbm, ⟨2, _⟩ => ⟨S16x1x128, .f32⟩
  | .hbm, ⟨3, _⟩ => ⟨S16x1x1, .f32⟩
  | .hbm, ⟨4, _⟩ => ⟨S16, .f32⟩
  | .local _ .vmem, ⟨0, _⟩ => ⟨S8x256x128, .f32⟩
  | .local _ .vmem, ⟨1, _⟩ => ⟨S8x256x128, .f32⟩
  | .local _ .vmem, ⟨2, _⟩ => ⟨S8x256x128, .f32⟩
  | .local _ .vmem, ⟨3, _⟩ => ⟨S8x256x128, .f32⟩
  | .local _ .vmem, ⟨4, _⟩ => ⟨S8x1x128, .f32⟩
  | .local _ .vmem, ⟨5, _⟩ => ⟨S8x1x128, .f32⟩
  | _, _ => ⟨S16x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_off1 (k0_t1 : Fin k0_t1_loop.trips) : Fin 3 → Nat :=
  let c0_i32 : BitVec 32 := 0#32
  let c1_i32 : BitVec 32 := 1#32
  let arg4 : BitVec 32 := Scf.iv c0_i32 c1_i32 k0_t1
  let v1 : Index := Scalar.indexCast arg4
  let c0 : Index := 0#32
  let c0_1 : Index := 0#32
  ![v1.toNat, 0, 0]
def k0_off2 (k0_t1 : Fin k0_t1_loop.trips) : Fin 3 → Nat :=
  let c0_i32 : BitVec 32 := 0#32
  let c1_i32 : BitVec 32 := 1#32
  let arg4 : BitVec 32 := Scf.iv c0_i32 c1_i32 k0_t1
  let v178 : Index := Scalar.indexCast arg4
  let c0_46 : Index := 0#32
  let c0_47 : Index := 0#32
  ![v178.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  h_S1x256x128 : 0 < S1x256x128.numel
  shapeCasts_S1x256x128_S256x128 : S1x256x128.ShapeCasts S256x128
  slices_S256x128_o0_0_S64x128 : S256x128.Slices ![0, 0] S64x128
  shapeCasts_S64x128_S64x1x128 : S64x128.ShapeCasts S64x1x128
  shapeCasts_S256x128_S1x256x128 : S256x128.ShapeCasts S1x256x128
  broadcasts_S64x1x128_S64x256x128 : S64x1x128.Broadcasts S64x256x128
  broadcasts_S1x256x128_S64x256x128 : S1x256x128.Broadcasts S64x256x128
  reduces_S64x256x128_S64x256 : S64x256x128.Reduces [2] S64x256
  reduces_S64x256_S64 : S64x256.Reduces [1] S64
  shapeCasts_S64_S64x1 : S64.ShapeCasts S64x1
  reduces_S64x1_S1 : S64x1.Reduces [0] S1
  shapeCasts_S1_S1x1 : S1.ShapeCasts S1x1
  slices_S256x128_o64_0_S64x128 : S256x128.Slices ![64, 0] S64x128
  slices_S256x128_o128_0_S64x128 : S256x128.Slices ![128, 0] S64x128
  slices_S256x128_o192_0_S64x128 : S256x128.Slices ![192, 0] S64x128
  shapeCasts_S1x1_S1x1 : S1x1.ShapeCasts S1x1
  broadcasts_S1x1_S1x128 : S1x1.Broadcasts S1x128
  h_S1x1x128 : 0 < S1x1x128.numel
  shapeCasts_S1x1x128_S1x128 : S1x1x128.ShapeCasts S1x128
  shapeCasts_S1x128_S1x1x128 : S1x128.ShapeCasts S1x1x128
  slices_S16x1x128_S16x1x1_0_0_0 : S16x1x128.Slices ![0, 0, 0] S16x1x1
  shapeCasts_S16x1x1_S16 : S16x1x1.ShapeCasts S16
  hrank0 : 0 < grid0.rank
  k0_t1_ok : k0_t1_loop.OK
  k0_off1_inb : ∀ k0_t1 : Fin k0_t1_loop.trips, ∀ a, (k0_off1 k0_t1) a + S1x256x128.size a ≤ S8x256x128.size a
  k0_off2_inb : ∀ k0_t1 : Fin k0_t1_loop.trips, ∀ a, (k0_off2 k0_t1) a + S1x1x128.size a ≤ S8x1x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x128.size a ≤ S16x256x128.size a
  hwx0_0 : ∀ i : grid0.Coords, EltTy.bits .f32 = 32 ∨ (Rect.block (s := S16x256x128) S8x256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x128.size a ≤ S16x256x128.size a
  hwx0_1 : ∀ i : grid0.Coords, EltTy.bits .f32 = 32 ∨ (Rect.block (s := S16x256x128) S8x256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1x128.size a ≤ S16x1x128.size a
  hwx0_2 : ∀ i : grid0.Coords, EltTy.bits .f32 = 32 ∨ (Rect.block (s := S16x1x128) S8x1x128.size (cc0_transform_2 i) (hinb0_2 i)).WholeWords (EltTy.packing .f32)

variable [Facts₀]

abbrev win0_0 : Pipeline.Window sig grid0 :=
  Pipeline.Window.ofSpec (Memref.whole main_arg0) S8x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x256x128 : Shape := ⟨3, ![16, 256, 128]⟩
abbrev S16x256x1x128 : Shape := ⟨4, ![16, 256, 1, 128]⟩
abbrev S16x1x256x128 : Shape := ⟨4, ![16, 1, 256, 128]⟩
abbrev S16x256x256x128 : Shape := ⟨4, ![16, 256, 256, 128]⟩
abbrev S_ : Shape := ⟨0, ![]⟩
abbrev S16x256x256 : Shape := ⟨3, ![16, 256, 256]⟩
abbrev S16 : Shape := ⟨1, ![16]⟩

abbrev nBuf : Space → Nat
  | .hbm => 46
  | .vmem => 0
  | .smem => 0
  | _ => 0

abbrev bufTy : (tb : Table) → Fin (tcTables nBuf tb) → BufTy
  | .hbm, ⟨0, _⟩ => ⟨S16x256x128, .f32⟩
  | .hbm, ⟨1, _⟩ => ⟨S16x256x128, .f32⟩
  | .hbm, ⟨2, _⟩ => ⟨S16x256x1x128, .f32⟩
  | .hbm, ⟨3, _⟩ => ⟨S16x1x256x128, .f32⟩
  | .hbm, ⟨4, _⟩ => ⟨S16x256x256x128, .f32⟩
  | .hbm, ⟨5, _⟩ => ⟨S16x256x256x128, .f32⟩
  | .hbm, ⟨6, _⟩ => ⟨S16x256x256x128, .f32⟩
  | .hbm, ⟨7, _⟩ => ⟨S16x256x256x128, .f32⟩
  | .hbm, ⟨8, _⟩ => ⟨S_, .f32⟩
  | .hbm, ⟨9, _⟩ => ⟨S16x256x256, .f32⟩
  | .hbm, ⟨10, _⟩ => ⟨S_, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S16x256x1x128, .f32⟩
  | .hbm, ⟨16, _⟩ => ⟨S16x1x256x128, .f32⟩
  | .hbm, ⟨17, _⟩ => ⟨S16x256x256x128, .f32⟩
  | .hbm, ⟨18, _⟩ => ⟨S16x256x256x128, .f32⟩
  | .hbm, ⟨19, _⟩ => ⟨S16x256x256x128, .f32⟩
  | .hbm, ⟨20, _⟩ => ⟨S16x256x256x128, .f32⟩
  | .hbm, ⟨21, _⟩ => ⟨S_, .f32⟩
  | .hbm, ⟨22, _⟩ => ⟨S16x256x256, .f32⟩
  | .hbm, ⟨23, _⟩ => ⟨S_, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S16x256x1x128, .f32⟩
  | .hbm, ⟨29, _⟩ => ⟨S16x1x256x128, .f32⟩
  | .hbm, ⟨30, _⟩ => ⟨S16x256x256x128, .f32⟩
  | .hbm, ⟨31, _⟩ => ⟨S16x256x256x128, .f32⟩
  | .hbm, ⟨32, _⟩ => ⟨S16x256x256x128, .f32⟩
  | .hbm, ⟨33, _⟩ => ⟨S16x256x256x128, .f32⟩
  | .hbm, ⟨34, _⟩ => ⟨S_, .f32⟩
  | .hbm, ⟨35, _⟩ => ⟨S16x256x256, .f32⟩
  | .hbm, ⟨36, _⟩ => ⟨S_, .f32⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S16, .f32⟩
  | .hbm, ⟨41, _⟩ => ⟨S16, .f32⟩
  | .hbm, ⟨42, _⟩ => ⟨S_, .f32⟩
  | .hbm, ⟨43, _⟩ => ⟨S16, .f32⟩
  | .hbm, ⟨44, _⟩ => ⟨S16, .f32⟩
  | .hbm, ⟨45, _⟩ => ⟨S16, .f32⟩
  | _, _ => ⟨S16x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_5 : Ref sig .tc := ⟨.hbm, 34, rfl⟩
abbrev main_v26 : Ref sig .tc := ⟨.hbm, 35, rfl⟩
abbrev main_cst_6 : Ref sig .tc := ⟨.hbm, 36, rfl⟩
abbrev main_v27 : Ref sig .tc := ⟨.hbm, 37, rfl⟩
abbrev main_cst_7 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_8 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  bcast_S16x256x128_S16x256x1x128_0_1_3 : S16x256x128.BroadcastsInDim S16x256x1x128 (![0, 1, 3] : Fin 3 → Fin S16x256x1x128.rank)
  bcast_S16x256x128_S16x1x256x128_0_2_3 : S16x256x128.BroadcastsInDim S16x1x256x128 (![0, 2, 3] : Fin 3 → Fin S16x1x256x128.rank)
  bcast_S16x256x1x128_S16x256x256x128_0_1_2_3 : S16x256x1x128.BroadcastsInDim S16x256x256x128 (![0, 1, 2, 3] : Fin 4 → Fin S16x256x256x128.rank)
  bcast_S16x1x256x128_S16x256x256x128_0_1_2_3 : S16x1x256x128.BroadcastsInDim S16x256x256x128 (![0, 1, 2, 3] : Fin 4 → Fin S16x256x256x128.rank)
  reducesTo_S16x256x256x128_S16x256x256_d3 : S16x256x256x128.ReducesTo [3] S16x256x256
  h_S_ : 0 < S_.numel
  reducesTo_S16x256x256_S16_d1_2 : S16x256x256.ReducesTo [1, 2] S16
  bcast_S_S16 : S_.BroadcastsInDim S16 (![] : Fin 0 → Fin S16.rank)

variable [Facts₀]

class Facts : Prop extends Facts₀ where

variable [Facts]
-- ==== Proof.EnergySpec.lean ====
/-
  The energy distance of two point clouds, as one function of the two argument arrays.
  For a batch index b, with rows a_i = x1[b, i, ·] and c_j = x2[b, j, ·] (256 rows of 128 numbers each),
    L(u, w) = Σ_i Σ_j Σ_d |u_i,d − w_j,d|
  is the summed pairwise L1 distance, and the result at b is
    L(a, c) · 2⁻¹⁶ − ½ · (L(c, c) · 2⁻¹⁶ + L(a, a) · 2⁻¹⁶),
  where 2⁻¹⁶ = 1 / (256 · 256) turns each sum into a mean over the pairs. Over the extended reals |z| is
  max z (−z), and dividing by 65536 is multiplying by 2⁻¹⁶ at every extended real, infinite ones included.
-/
import Idealize.ShloMosaic.PureOps.Ideal
import Idealize.ShloMosaic.PureOps.Ideal.Laws
import Idealize.ShloMosaic.Lib.ValueIdx

noncomputable section

open scoped BigOperators

namespace Cert.EnergySpec

open Idealize.ShloMosaic Idealize.ShloMosaic.ValueIdx

/-- One batch entry of an argument array: 256 rows of 128 extended reals. -/
abbrev Rows : Type := Fin 256 → Fin 128 → EReal

/-- The absolute difference of two extended reals. -/
def dist (a c : EReal) : EReal := max (a - c) (-(a - c))

/-- The summed pairwise L1 distance between the rows of `A` and the rows of `C`. -/
def pairSum (A C : Rows) : EReal := ∑ i : Fin 256, ∑ j : Fin 256, ∑ d : Fin 128, dist (A i d) (C j d)

/-- 2⁻¹⁶, the reciprocal of the number of row pairs, as the f32 word both programs could spell. -/
def scale : EReal := Ideal.ofBits .f32 0x37800000#32

/-- One half, as its f32 word. -/
def half : EReal := Ideal.ofBits .f32 0x3F000000#32

/-- The energy distance of one batch entry. -/
def energy (A C : Rows) : EReal := pairSum A C * scale - half * (pairSum C C * scale + pairSum A A * scale)

/-- Batch entry `b` of a [16, 256, 128] array. -/
def rows (x : (⟨3, ![16, 256, 128]⟩ : Shape).Idx → EReal) (b : Fin 16) : Rows := fun i d => x (ix3 b i d)

/-- The whole result: the energy distance of each of the 16 batch entries. -/
def result (x1 x2 : (⟨3, ![16, 256, 128]⟩ : Shape).Idx → EReal) : (⟨1, ![16]⟩ : Shape).Idx → EReal :=
  fun j => energy (rows x1 (j 0)) (rows x2 (j 0))

/-- The word 0x47800000 is the real number 65536 = 256 · 256. -/
theorem count_eq : Ideal.ofBits .f32 0x47800000#32 = ((65536 : ℝ) : EReal) := by
  simp [Ideal.ofBits, Ideal.ieee, -EReal.coe_mul]; norm_num

/-- The word 0x37800000 is the real number 1 / 65536. -/
theorem scale_eq : scale = ((1 / 65536 : ℝ) : EReal) := by
  unfold scale
  simp [Ideal.ofBits, Ideal.ieee, -EReal.coe_mul]; norm_num

/-- Dividing by the number of pairs is multiplying by its reciprocal, at every extended real. -/
theorem div_count (x : EReal) : Ideal.div x (Ideal.ofBits .f32 0x47800000#32) = x * scale := by
  rw [count_eq, scale_eq]
  exact Ideal.div_coe (by norm_num) x

end Cert.EnergySpec

end
-- ==== Proof.RefEnergy.lean ====
/-
  The reference program's result is the energy distance of the specification.

  The reference forms, for each batch entry b, the array of all row pairs' L1 distances
    D[b, p, q] = Σ_d |u[b, p, d] − w[b, q, d]|      (256 × 256 pairs, 128 coordinates each),
  sums it over both pair axes at once, and divides by 65536 = 256 · 256; it does so for the pairs
  (x0, x1), (x1, x1) and (x0, x0), and returns the first mean minus one half of the sum of the other two.

  The only step that is not a pointwise reading is the sum over the two pair axes together: the set of
  indices (a, p, q) of a [16, 256, 256] array whose first coordinate is b is in bijection with the pairs
  (p, q), so the sum over that set is the double sum over p and q. Every sum starts from the word 0,
  which is the extended real 0, and dividing by 65536 is multiplying by 2⁻¹⁶.
-/
import proofs.«160626_j30021821399466_1_alg».proof.Proof.EnergySpec
import proofs.«160626_j30021821399466_1_alg».proof.Proof.Gen.ReferenceIdeal.Read

noncomputable section

open scoped BigOperators

namespace Cert.ReferenceIdeal.RefEnergy

open Idealize.ShloMosaic Idealize.ShloMosaic.ValueIdx Cert.ReferenceIdeal

/-- Removing the two pair axes of an index (a, p, q) leaves its batch coordinate a, so the index lies over
    the batch entry b exactly when a = b. -/
theorem drop_iff (h : S16x256x256.ReducesTo [1, 2] S16) (b : Fin 16) (i : S16x256x256.Idx) :
    h.drop i = ix1 b ↔ i 0 = b := by
  have hd : (h.drop i 0 : Nat) = i 0 := h.drop_apply_val_of_eq i 0 0
  constructor
  · intro hi
    have h0 : (h.drop i 0 : Nat) = b := congrArg (fun f : S16.Idx => ((f 0 : Fin 16) : Nat)) hi
    exact Fin.ext (hd.symm.trans h0)
  · intro hi
    funext d
    match d with
    | ⟨0, _⟩ => exact Fin.ext (hd.trans (congrArg Fin.val hi))

/-- The sum over the indices lying over batch entry b is the double sum over the two pair coordinates:
    (p, q) ↦ (b, p, q) is a bijection from the pairs onto that set, with inverse (a, p, q) ↦ (p, q). -/
theorem sum_fibre (h : S16x256x256.ReducesTo [1, 2] S16) (x : S16x256x256.Idx → EReal) (b : Fin 16) :
    ∑ i ∈ Finset.univ.filter (fun i => h.drop i = ix1 b), x i
      = ∑ p : Fin 256, ∑ q : Fin 256, x (ix3 b p q) := by
  rw [← Fintype.sum_prod_type']
  have hback : ∀ i : S16x256x256.Idx, h.drop i = ix1 b → ix3 b (i 1 : Fin 256) (i 2 : Fin 256) = i := by
    intro i hi
    have hb : i 0 = b := (drop_iff h b i).1 hi
    subst hb
    exact (eq_ix3 i).symm
  refine Finset.sum_nbij' (fun i => ((i 1 : Fin 256), (i 2 : Fin 256))) (fun pq => ix3 b pq.1 pq.2) ?_ ?_ ?_ ?_ ?_
  · intro i _; exact Finset.mem_univ _
  · intro pq _
    exact Finset.mem_filter.2 ⟨Finset.mem_univ _, (drop_iff h b _).2 rfl⟩
  · intro i hi
    exact hback i (Finset.mem_filter.1 hi).2
  · intro pq _; rfl
  · intro i hi
    exact congrArg x (hback i (Finset.mem_filter.1 hi).2).symm

/-- One entry of the pairwise-distance array: D[b, p, q] is the sum over the 128 coordinates of the
    absolute differences of row p of the first array and row q of the second. The two broadcasts read
    u at (b, p, d) and w at (b, q, d); the absolute value of the difference is max z (−z). -/
theorem inner_apply (x0 x1 : (⟨S16x256x128, .f32⟩ : BufTy).Contents (Elt Ideal)) (b : Fin 16) (p q : Fin 256) :
    Read.val_main_v6 (F := Ideal) x0 x1 (ix3 b p q)
      = ∑ d : Fin 128, Cert.EnergySpec.dist (x0 (ix3 b p d)) (x1 (ix3 b q d)) := by
  rw [Read.val_main_v6_apply, Read.val_main_cst_apply, Ideal.ofBits_def, Ideal.ofBits_zero_f32, zero_add]
  refine Finset.sum_congr rfl fun d _ => ?_
  rw [Read.val_main_v5_apply, Read.val_main_v4_apply, Read.val_main_v2_apply, Read.val_main_v0_apply,
    Read.val_main_v3_apply, Read.val_main_v1_apply]
  have e0 : Read.idx_main_v0 (Read.idx_main_v2 (Read.idx_main_v6 (ix3 b p q) d)) = ix3 b p d := by
    funext a; match a with | ⟨0, _⟩ => rfl | ⟨1, _⟩ => rfl | ⟨2, _⟩ => rfl
  have e1 : Read.idx_main_v1 (Read.idx_main_v3 (Read.idx_main_v6 (ix3 b p q) d)) = ix3 b q d := by
    funext a; match a with | ⟨0, _⟩ => rfl | ⟨1, _⟩ => rfl | ⟨2, _⟩ => rfl
  rw [e0, e1]
  rfl

/-- The mean of the pairwise distances of batch entry b: the summed pairwise L1 distance of its rows
    times 2⁻¹⁶. -/
theorem mean_apply (x0 x1 : (⟨S16x256x128, .f32⟩ : BufTy).Contents (Elt Ideal)) (b : Fin 16) :
    Read.val_main_v9 (F := Ideal) x0 x1 (ix1 b)
      = Cert.EnergySpec.pairSum (Cert.EnergySpec.rows x0 b) (Cert.EnergySpec.rows x1 b) * Cert.EnergySpec.scale := by
  rw [Read.val_main_v9_apply, Ideal.hostDivf_def, Read.val_main_v8_apply, Read.val_main_cst_1_apply, Ideal.ofBits_def,
    Cert.EnergySpec.div_count]
  refine congrArg (· * Cert.EnergySpec.scale) ?_
  unfold Read.val_main_v7
  simp only [Host.reduceAdd, Ideal.hostReduceAdd_def]
  unfold Ideal.hostReduceAdd
  rw [sum_fibre, Read.val_main_cst_0_apply, Ideal.ofBits_def, Ideal.ofBits_zero_f32, zero_add]
  unfold Cert.EnergySpec.pairSum Cert.EnergySpec.rows
  refine Finset.sum_congr rfl fun p _ => Finset.sum_congr rfl fun q _ => ?_
  exact inner_apply x0 x1 b p q

/-- The second mean is the first one's function taken at the pair (w, w). -/
theorem v19_eq (x1 : (⟨S16x256x128, .f32⟩ : BufTy).Contents (Elt Ideal)) :
    Read.val_main_v19 (F := Ideal) x1 = Read.val_main_v9 (F := Ideal) x1 x1 := rfl

/-- The third mean is the first one's function taken at the pair (u, u). -/
theorem v29_eq (x0 : (⟨S16x256x128, .f32⟩ : BufTy).Contents (Elt Ideal)) :
    Read.val_main_v29 (F := Ideal) x0 = Read.val_main_v9 (F := Ideal) x0 x0 := rfl

/-- The result at batch entry b: the mean over (u, w) minus one half of the sum of the means over (w, w)
    and (u, u), which is the energy distance of the two row sets. -/
theorem ref_apply (x0 x1 : (⟨S16x256x128, .f32⟩ : BufTy).Contents (Elt Ideal)) (b : Fin 16) :
    Read.val_main_v33 (F := Ideal) x0 x1 (ix1 b)
      = Cert.EnergySpec.energy (Cert.EnergySpec.rows x0 b) (Cert.EnergySpec.rows x1 b) := by
  rw [Read.val_main_v33_apply, Read.val_main_v32_apply, Read.val_main_v30_apply, Read.val_main_v31_apply,
    Read.val_main_cst_8_apply, v19_eq, v29_eq, mean_apply, mean_apply, mean_apply]
  rfl

/-- The reference's result is the specification's, at every batch entry. -/
theorem ref_eq (x0 x1 : (⟨S16x256x128, .f32⟩ : BufTy).Contents (Elt Ideal)) :
    Cert.ReferenceIdeal.Read.val_main_v33 (F := Ideal) x0 x1 = Cert.EnergySpec.result x0 x1 := by
  funext j
  have e : j = ix1 (j 0 : Fin 16) := eq_ix1 j
  exact (congrArg (Read.val_main_v33 (F := Ideal) x0 x1) e).trans (ref_apply x0 x1 (j 0))

end Cert.ReferenceIdeal.RefEnergy

end
-- ==== Proof.TripValue.lean ====
/-
  What one trip of the kernel's loop over the eight batch entries of a block stores, as ONE function of the two
  things the trip loads: row `k` of the first operand's block and row `k` of the second's, each a [1, 256, 128] slab.
  It is the body's arithmetic (the three summed pairwise distances, scaled and combined) splat across the 128 lanes.
-/
import proofs.«160626_j30021821399466_1_alg».proof.Proof.Gen.KernelIdeal.Skeleton

noncomputable section

namespace Cert.KernelIdeal.TripValue

open Idealize.ShloMosaic Cert.KernelIdeal Cert.KernelIdeal.Gen

variable {F : FTy → Type} [FloatOps F]

/-- The value trip `k` writes to row `k` of the output block, from the two slabs it loaded. -/
def tripVal (v2 v5 : Vec F S1x256x128 .f32) : FVec F S1x1x128 .f32 :=
  k0_pay1 (k0_pay2 v2)
    (k0_pay6 (k0_pay2 v2) (k0_pay3 v5) (k0_pay4 v2 v5) (k0_pay5 v2 v5))
    (k0_pay9 (k0_pay3 v5) (k0_pay7 (k0_pay3 v5)) (k0_pay8 (k0_pay3 v5)))
    (k0_pay10 (k0_pay2 v2)) (k0_pay11 (k0_pay2 v2)) (k0_pay12 (k0_pay2 v2))

end Cert.KernelIdeal.TripValue

end
-- ==== Proof.TripPieces.lean ====
/-
  What the kernel body writes into its output block, as a list of pieces.
  The body is a loop of eight trips. Trip `k` loads slab `k` (a [1, 256, 128] rectangle at offsets (k, 0, 0)) of each
  of the two input blocks and stores ONE [1, 1, 128] rectangle at offsets (k, 0, 0) of the output block, holding
  `tripVal` of the two slabs. So the pieces after the loop are, last trip first, one such rectangle per trip.
-/
import proofs.«160626_j30021821399466_1_alg».proof.Proof.Gen.KernelIdeal.Frame
import proofs.«160626_j30021821399466_1_alg».proof.Proof.TripValue

set_option maxRecDepth 16384

noncomputable section

namespace Cert.KernelIdeal.TripPieces

open Idealize.ShloMosaic Idealize.ShloMosaic.TcCoe Idealize.ShloMosaic.Tactic
open Idealize.SL Idealize.SL.Sem
open Cert.KernelIdeal Cert.KernelIdeal.Gen Cert.KernelIdeal.TripValue

variable {F : FTy → Type} [FloatOps F]

/-- The rectangle of an input block that trip `k` loads: slab `k`. -/
abbrev slabRect (k : Fin k0_t1_loop.trips) : Rect S8x256x128 :=
  Rect.unit (s := S8x256x128) (k0_off1 k) S1x256x128.size (k0_off1_inb k)

/-- The rectangle of the output block that trip `k` stores: row `k`, all 128 lanes. -/
abbrev rowRect (k : Fin k0_t1_loop.trips) : Rect S8x1x128 :=
  Rect.unit (s := S8x1x128) (k0_off2 k) S1x1x128.size (k0_off2_inb k)

/-- ONE TRIP writes one piece: row `k` of the output block, at `tripVal` of the two slabs it read. -/
theorem tripL_eq (𝒱 : Variants) (c : Dev nD) (bd : Option 𝒱.V) (i : grid0.Coords)
    (arg1 : Memref sig .tc .vmem S8x256x128 .f32) (harg1 : arg1.IsWhole)
    (arg2 : Memref sig .tc .vmem S8x256x128 .f32) (harg2 : arg2.IsWhole)
    (arg3 : Memref sig .tc .vmem S8x1x128 .f32) (harg3 : arg3.IsWhole)
    (X1 : BufTy.Contents (Elt F) arg1.view.ty) (X2 : BufTy.Contents (Elt F) arg2.view.ty)
    (k : Fin k0_t1_loop.trips) :
    tripL_k0_t1 (F := F) 𝒱 c bd i arg1 harg1 arg2 harg2 arg3 harg3 X1 X2 k
      = [(⟨rowRect k, tripVal (View.readAt (Elt F) arg1.view (slabRect k).toLoadRect X1)
            (View.readAt (Elt F) arg2.view (slabRect k).toLoadRect X2)⟩ : View.Piece (Elt F) S8x1x128 .f32)] := by
  unfold tripL_k0_t1 trip_k0_t1
  dsimp only
  sl_unfold_words
  rfl

/-- THE WHOLE BODY's pieces are the loop's: the recursion over the trips, at the trip count, over the input
    blocks' contents as the body finds them. -/
theorem run_pieces (c : Dev nD) (i : grid0.Coords)
    (arg1 : Memref sig .tc .vmem S8x256x128 .f32) (harg1 : arg1.IsWhole)
    (arg2 : Memref sig .tc .vmem S8x256x128 .f32) (harg2 : arg2.IsWhole)
    (arg3 : Memref sig .tc .vmem S8x1x128 .f32) (harg3 : arg3.IsWhole)
    (x0 : Vec F S8x256x128 .f32) (x1 : Vec F S8x256x128 .f32) :
    (kernelRun0_A (F := F) c i arg1 harg1 arg2 harg2 arg3 harg3 x0 x1).1
      = pb_k0_t1 (F := F) Variants.none c none i arg1 harg1 arg2 harg2 arg3 harg3 (harg1.unread x0) (harg2.unread x1)
          k0_t1_loop.trips := by
  unfold kernelRun0_A
  rfl

end Cert.KernelIdeal.TripPieces

end
-- ==== Proof.TripEnergy.lean ====
/-
  One trip's stored value is the energy distance of the two slabs it loaded.

  Write a_i = v2[0, i, ·] and c_j = v5[0, j, ·] for the 256 rows (of 128 numbers) of the two loaded slabs, and
    L(u, w) = Σ_i Σ_j Σ_d |u_i,d − w_j,d|
  for the summed pairwise L1 distance. The trip's arithmetic never forms a [256, 256, 128] array of differences: it
  cuts the LEFT matrix into four blocks of 64 consecutive rows and, for each block, forms the [64, 256, 128] array of
  absolute differences against all 256 rows of the right matrix, sums it over the lane axis, then over the right
  rows, then over the block's 64 rows; the four block totals are added, in order, onto a zero. Three such totals are
  taken, L(a, c), L(c, c) and L(a, a), each is multiplied by 2⁻¹⁶, and the value stored is
    L(a, c) · 2⁻¹⁶ − ½ · (L(c, c) · 2⁻¹⁶ + L(a, a) · 2⁻¹⁶)
  copied to every one of the 128 lanes.

  The proof has three steps.
  (1) One block total, read at its single entry, is the triple sum Σ_{r < 64} Σ_{j < 256} Σ_{d < 128} |l_{o+r,d} − w_j,d|
      where o is the block's first row: every layout step (slice, reshape, broadcast) names one source entry, and each
      one-axis reduction is the sum over that axis's coordinate.
  (2) A sum over 256 rows is the sum of the sums over rows 0‥63, 64‥127, 128‥191, 192‥255. Only commutativity and
      associativity of addition on the extended reals are used, so infinite entries need no separate treatment.
  (3) So each of the three totals is L of the corresponding pair of row matrices, and reading the final reshape and
      broadcast at any lane gives the displayed combination, which is the specification's energy distance.
-/
import proofs.«160626_j30021821399466_1_alg».proof.Proof.EnergySpec
import proofs.«160626_j30021821399466_1_alg».proof.Proof.TripValue
import Idealize.ShloMosaic.Lib.ValueLayout

noncomputable section

open scoped BigOperators

namespace Cert.KernelIdeal.TripEnergy

open Idealize.ShloMosaic Idealize.ShloMosaic.ValueIdx Cert.KernelIdeal Cert.KernelIdeal.Gen Cert.EnergySpec

/-! ## One block of 64 left rows against all right rows -/

/-- The total of one block: rows o … o + 63 of the left matrix L against every row of the right matrix R. The block is
    reshaped to [64, 1, 128] and R to [1, 256, 128]; both are broadcast to [64, 256, 128], subtracted, and the absolute
    value is summed over the lanes, then over the right rows, then (after a reshape [64] → [64, 1]) over the block's
    rows, leaving one number held as a [1, 1] array. -/
def tile (o : Nat) (hs : S256x128.Slices ![o, 0] S64x128) (L R : FVec Ideal S256x128 .f32) : FVec Ideal S1x1 .f32 :=
  shapeCast S1x1
    (multiReduction .add [0] S1
      (shapeCast S64x1
        (multiReduction .add [1] S64
          (multiReduction .add [2] S64x256
            (absf (subf
              (broadcastTo S64x256x128
                (shapeCast S64x1x128 (extractStridedSlice S64x128 ![o, 0] L hs) shapeCasts_S64x128_S64x1x128)
                broadcasts_S64x1x128_S64x256x128)
              (broadcastTo S64x256x128 (shapeCast S1x256x128 R shapeCasts_S256x128_S1x256x128)
                broadcasts_S1x256x128_S64x256x128)))
            0x00000000#32 reduces_S64x256x128_S64x256 (.inl rfl) rfl)
          0x00000000#32 reduces_S64x256_S64 (.inl rfl) rfl)
        shapeCasts_S64_S64x1)
      0x00000000#32 reduces_S64x1_S1 (.inl rfl) rfl)
    shapeCasts_S1_S1x1

/-- Summing a [64, 1] array over axis 0: the entry (k, v) is the one that drops to v with row coordinate k. -/
theorem lift_row (h : S64x1.Reduces [0] S1) (v : Fin 1) (k : Fin 64) : h.lift (ix1 v) k = ix2 k v := by
  funext c
  match c with
  | ⟨0, _⟩ => exact Fin.ext rfl
  | ⟨1, _⟩ => exact Fin.ext rfl

/-- Summing a [64, 256] array over axis 1: the entry (k, j) is the one that drops to k with column coordinate j. -/
theorem lift_col (h : S64x256.Reduces [1] S64) (k : Fin 64) (j : Fin 256) : h.lift (ix1 k) j = ix2 k j := by
  funext c
  match c with
  | ⟨0, _⟩ => exact Fin.ext rfl
  | ⟨1, _⟩ => exact Fin.ext rfl

/-- Summing a [64, 256, 128] array over axis 2: the entry (k, j, d) is the one that drops to (k, j) with lane d. -/
theorem lift_lane (h : S64x256x128.Reduces [2] S64x256) (k : Fin 64) (j : Fin 256) (d : Fin 128) :
    h.lift (ix2 k j) d = ix3 k j d := by
  funext c
  match c with
  | ⟨0, _⟩ => exact Fin.ext rfl
  | ⟨1, _⟩ => exact Fin.ext rfl
  | ⟨2, _⟩ => exact Fin.ext rfl

/-- A [64] array viewed as [64, 1] has at (k, 0) the entry k: both sit at row-major position k. -/
theorem cast_col {α : Type} (x : S64.Idx → α) (h : S64.ShapeCasts S64x1) (k : Fin 64) (v : Fin 1) :
    shapeCast S64x1 x h (ix2 k v) = x (ix1 k) :=
  shapeCast_apply x h _ _ (by
    have hv : v.val = 0 := by omega
    rw [Shape.rowMajor_val_two, Shape.rowMajor_val_one]
    show k.val = k.val * 1 + v.val
    rw [hv, Nat.mul_one, Nat.add_zero])

/-- A [64, 128] array viewed as [64, 1, 128] has at (k, 0, d) the entry (k, d): both sit at position 128·k + d. -/
theorem cast_mid {α : Type} (x : S64x128.Idx → α) (h : S64x128.ShapeCasts S64x1x128) (k : Fin 64) (u : Fin 1)
    (d : Fin 128) : shapeCast S64x1x128 x h (ix3 k u d) = x (ix2 k d) :=
  shapeCast_apply x h _ _ (by
    have hu : u.val = 0 := by omega
    rw [Shape.rowMajor_val_three, Shape.rowMajor_val_two]
    show k.val * 128 + d.val = (k.val * 1 + u.val) * 128 + d.val
    rw [hu, Nat.mul_one, Nat.add_zero])

/-- A [64, 1, 128] array repeated along its middle axis has at (k, j, d) the entry (k, 0, d). -/
theorem bcast_left {α : Type} (x : S64x1x128.Idx → α) (h : S64x1x128.Broadcasts S64x256x128)
    (k : Fin 64) (j : Fin 256) (d : Fin 128) :
    broadcastTo S64x256x128 x h (ix3 k j d) = x (ix3 k (0 : Fin 1) d) :=
  broadcastTo_apply x h _ _ fun a => by
    match a with
    | ⟨0, _⟩ => rfl
    | ⟨1, _⟩ => rfl
    | ⟨2, _⟩ => rfl

/-- A [1, 256, 128] array repeated along its first axis has at (k, j, d) the entry (0, j, d). -/
theorem bcast_right {α : Type} (x : S1x256x128.Idx → α) (h : S1x256x128.Broadcasts S64x256x128)
    (k : Fin 64) (j : Fin 256) (d : Fin 128) :
    broadcastTo S64x256x128 x h (ix3 k j d) = x (ix3 (0 : Fin 1) j d) :=
  broadcastTo_apply x h _ _ fun a => by
    match a with
    | ⟨0, _⟩ => rfl
    | ⟨1, _⟩ => rfl
    | ⟨2, _⟩ => rfl

/-- Step (1). The block total is Σ_{r < 64} Σ_{j < 256} Σ_{d < 128} |L_{o+r,d} − R_{j,d}|: the three reductions are
    read outermost first, each as the sum over the coordinate it removes, and the summand |x − y| = max (x − y) (−(x − y))
    is read through the two broadcasts, the two reshapes and the slice, which moves row r of the block to row o + r. -/
theorem tile_apply (o : Nat) (hs : S256x128.Slices ![o, 0] S64x128) (L R : FVec Ideal S256x128 .f32) (u v : Fin 1) :
    tile o hs L R (ix2 u v) = ∑ r : Fin 64, ∑ j : Fin 256, ∑ d : Fin 128,
      dist (L (ix2 ⟨o + r.val, Nat.lt_of_lt_of_le (Nat.add_lt_add_left r.isLt o) (hs.2 0)⟩ d)) (R (ix2 j d)) := by
  unfold tile
  refine (shapeCast_a_1a_apply _ _ u v).trans ?_
  refine (Ideal.multiReduction_add_single _ _ _ _ _ _).trans ?_
  show ∑ k : Fin 64, _ = _
  refine Finset.sum_congr rfl fun k _ => ?_
  rw [lift_row]
  refine (cast_col _ _ k v).trans ?_
  refine (Ideal.multiReduction_add_single _ _ _ _ _ _).trans ?_
  show ∑ j : Fin 256, _ = _
  refine Finset.sum_congr rfl fun j _ => ?_
  rw [lift_col]
  refine (Ideal.multiReduction_add_single _ _ _ _ _ _).trans ?_
  show ∑ d : Fin 128, _ = _
  refine Finset.sum_congr rfl fun d _ => ?_
  rw [lift_lane]
  change dist (broadcastTo S64x256x128 _ _ (ix3 k j d)) (broadcastTo S64x256x128 _ _ (ix3 k j d)) = _
  rw [bcast_left, bcast_right, cast_mid, shapeCast_ab_1ab_apply, slice2_axis0_eq]

/-! ## Four blocks make the whole -/

/-- Step (2). A sum over 256 indices is the sum over its four consecutive runs of 64, added left to right:
    256 = 192 + 64, 192 = 128 + 64 and 128 = 64 + 64, each split being the sum over a disjoint union. -/
theorem sum_tiles (f : Fin 256 → EReal) :
    ∑ i : Fin 256, f i
      = (((∑ r : Fin 64, f ⟨0 + r.val, by have := r.isLt; omega⟩)
            + ∑ r : Fin 64, f ⟨64 + r.val, by have := r.isLt; omega⟩)
          + ∑ r : Fin 64, f ⟨128 + r.val, by have := r.isLt; omega⟩)
        + ∑ r : Fin 64, f ⟨192 + r.val, by have := r.isLt; omega⟩ := by
  have e3 : ∑ i : Fin 256, f i
      = ∑ i : Fin 192, f ⟨i.val, by have := i.isLt; omega⟩
        + ∑ r : Fin 64, f ⟨192 + r.val, by have := r.isLt; omega⟩ :=
    Fin.sum_univ_add (a := 192) (b := 64) f
  have e2 : ∑ i : Fin 192, f ⟨i.val, by have := i.isLt; omega⟩
      = ∑ i : Fin 128, f ⟨i.val, by have := i.isLt; omega⟩
        + ∑ r : Fin 64, f ⟨128 + r.val, by have := r.isLt; omega⟩ :=
    Fin.sum_univ_add (a := 128) (b := 64) (fun i : Fin (128 + 64) => f ⟨i.val, by have := i.isLt; omega⟩)
  have e1 : ∑ i : Fin 128, f ⟨i.val, by have := i.isLt; omega⟩
      = ∑ r : Fin 64, f ⟨0 + r.val, by have := r.isLt; omega⟩
        + ∑ r : Fin 64, f ⟨64 + r.val, by have := r.isLt; omega⟩ := by
    refine (Fin.sum_univ_add (a := 64) (b := 64)
      (fun i : Fin (64 + 64) => f ⟨i.val, by have := i.isLt; omega⟩)).trans ?_
    simp only [Nat.zero_add]
    rfl
  rw [e3, e2, e1]

/-- One of the trip's three totals: the four block totals of L against R added, in order, onto the zero constant. -/
def total (L R : FVec Ideal S256x128 .f32) : FVec Ideal S1x1 .f32 :=
  addf (addf (addf (addf (broadcast S1x1 (Scalar.ofBits .f32 0x00000000#32))
    (tile 0 slices_S256x128_o0_0_S64x128 L R))
    (tile 64 slices_S256x128_o64_0_S64x128 L R))
    (tile 128 slices_S256x128_o128_0_S64x128 L R))
    (tile 192 slices_S256x128_o192_0_S64x128 L R)

/-- Step (3), first half. A total is the summed pairwise L1 distance between the rows of L and the rows of R: the
    outer sum over the 256 left rows splits into the four blocks, each block is its triple sum, and the zero the
    totals are added onto is the additive unit. -/
theorem total_apply (L R : FVec Ideal S256x128 .f32) (u v : Fin 1) :
    total L R (ix2 u v) = pairSum (fun i d => L (ix2 i d)) (fun j d => R (ix2 j d)) := by
  unfold total pairSum
  rw [sum_tiles]
  show (((Ideal.ofBits .f32 0x00000000#32 + tile 0 _ L R (ix2 u v)) + tile 64 _ L R (ix2 u v))
    + tile 128 _ L R (ix2 u v)) + tile 192 _ L R (ix2 u v) = _
  rw [tile_apply, tile_apply, tile_apply, tile_apply, Ideal.ofBits_zero_f32, zero_add]

/-! ## The stored value -/

/-- Step (3), second half. At every lane the trip stores L(a, c) · 2⁻¹⁶ − ½ · (L(c, c) · 2⁻¹⁶ + L(a, a) · 2⁻¹⁶) for the
    rows a of the first slab and c of the second: the trip's value is that combination of the three totals, held as a
    [1, 1] array, repeated along the lanes and reshaped to [1, 1, 128]; a slab [1, 256, 128] viewed as a matrix has at
    (i, d) the slab's entry (0, i, d). -/
theorem tripVal_apply (v2 v5 : Vec Ideal S1x256x128 .f32) (y : S1x1x128.Idx) :
    Cert.KernelIdeal.TripValue.tripVal (F := Ideal) v2 v5 y
      = Cert.EnergySpec.energy (fun i d => v2 (ix3 0 i d)) (fun i d => v5 (ix3 0 i d)) := by
  obtain ⟨a, b, c, rfl⟩ : ∃ a b c, y = ix3 a b c := ⟨_, _, _, eq_ix3 y⟩
  have hval : TripValue.tripVal (F := Ideal) v2 v5
      = shapeCast S1x1x128 (broadcastTo S1x128 (shapeCast S1x1
          (subf (mulf (total (k0_pay2 v2) (k0_pay3 v5)) (broadcast S1x1 (Scalar.ofBits .f32 0x37800000#32)))
            (mulf (broadcast S1x1 (Scalar.ofBits .f32 0x3F000000#32))
              (addf (mulf (total (k0_pay3 v5) (k0_pay3 v5)) (broadcast S1x1 (Scalar.ofBits .f32 0x37800000#32)))
                (mulf (total (k0_pay2 v2) (k0_pay2 v2)) (broadcast S1x1 (Scalar.ofBits .f32 0x37800000#32))))))
          shapeCasts_S1x1_S1x1) broadcasts_S1x1_S1x128) shapeCasts_S1x128_S1x1x128 := rfl
  rw [hval]
  refine (shapeCast_ab_1ab_apply _ _ a b c).trans ?_
  refine (broadcastTo_apply _ _ (ix2 b c) (ix2 (0 : Fin 1) (0 : Fin 1)) fun ax => ?_).trans ?_
  · match ax with
    | ⟨0, _⟩ => rfl
    | ⟨1, _⟩ => rfl
  rw [shapeCast_self]
  show total _ _ (ix2 0 0) * scale - half * (total _ _ (ix2 0 0) * scale + total _ _ (ix2 0 0) * scale) = _
  rw [total_apply, total_apply, total_apply]
  have hA : (fun (i : Fin 256) (d : Fin 128) => k0_pay2 v2 (ix2 i d)) = fun i d => v2 (ix3 0 i d) :=
    funext fun i => funext fun d => shapeCast_1ab_ab_apply v2 _ i d
  have hC : (fun (i : Fin 256) (d : Fin 128) => k0_pay3 v5 (ix2 i d)) = fun i d => v5 (ix3 0 i d) :=
    funext fun i => funext fun d => shapeCast_1ab_ab_apply v5 _ i d
  rw [hA, hC]
  rfl

end Cert.KernelIdeal.TripEnergy

end
-- ==== Proof.BlockValue.lean ====
/-
  What the kernel body leaves in its output block, at the ideal instance.
  The block is [8, 1, 128]: one row per batch entry of the block, 128 lanes. Trip `k` of the body's loop stores row `k`,
  and what it stores at every lane is the energy distance of slab `k` of the first input block against slab `k` of
  the second. So every piece of the loop's list is a tile of ONE function of the block index, `blockEnergy`, the pieces
  cover the block, and the block after the body is that function.
-/
import proofs.«160626_j30021821399466_1_alg».proof.Proof.TripPieces
import proofs.«160626_j30021821399466_1_alg».proof.Proof.EnergySpec
import proofs.«160626_j30021821399466_1_alg».proof.Proof.TripEnergy
import Idealize.ShloMosaic.Lib.Pipeline.Value

set_option maxRecDepth 16384

noncomputable section

namespace Cert.KernelIdeal.BlockValue

open Idealize.ShloMosaic Idealize.ShloMosaic.ValueIdx Idealize.ShloMosaic.TcCoe
open Idealize.SL Idealize.SL.Sem
open Cert.KernelIdeal Cert.KernelIdeal.Gen Cert.KernelIdeal.TripValue Cert.KernelIdeal.TripPieces

/-- What the output block holds after the body, as one function of the two input blocks: at row `r`, whatever
    the lane, the energy distance of batch entry `r` of the first block against batch entry `r` of the second. -/
def blockEnergy (x0 x1 : Vec Ideal S8x256x128 .f32) : Vec Ideal S8x1x128 .f32 :=
  fun y => Cert.EnergySpec.energy (fun i d => x0 (ix3 (y 0) i d)) (fun i d => x1 (ix3 (y 0) i d))

/-- The loop has at most eight trips, so a trip number is a row of the block. -/
theorem trip_lt (k : Fin k0_t1_loop.trips) : k.val < 8 := Nat.lt_of_lt_of_le k.isLt k0_t1_abs.2.1

/-- Slab `k` of an input block, read at (0, i, d), is the block at (k, i, d). -/
theorem slab_apply (k : Fin k0_t1_loop.trips) (x : Vec Ideal S8x256x128 .f32) (i : Fin 256) (d : Fin 128) :
    View.ld x (slabRect k) (ix3 (0 : Fin 1) i d) = x (ix3 (⟨k.val, trip_lt k⟩ : Fin 8) i d) := by
  show x ((slabRect k).emb (ix3 (0 : Fin 1) i d)) = _
  refine congrArg x (funext fun a => Fin.ext ?_)
  have e := k0_off1_eq k
  match a with
  | ⟨0, _⟩ => show k0_off1 k 0 + 1 * 0 = k.val; rw [e]; rfl
  | ⟨1, _⟩ => show k0_off1 k 1 + 1 * i.val = i.val; rw [e]; show 0 + 1 * i.val = i.val; omega
  | ⟨2, _⟩ => show k0_off1 k 2 + 1 * d.val = d.val; rw [e]; show 0 + 1 * d.val = d.val; omega

/-- The row of the block that an index of trip `k`'s stored rectangle lands in is `k`. -/
theorem row_emb (k : Fin k0_t1_loop.trips) (x : (rowRect k).shape.Idx) :
    (rowRect k).emb x 0 = (⟨k.val, trip_lt k⟩ : Fin 8) := by
  apply Fin.ext
  have e := k0_off2_eq k
  have hx : (x 0).val < 1 := (x 0).isLt
  show k0_off2 k 0 + 1 * (x 0).val = k.val
  rw [e]; show k.val + 1 * (x 0).val = k.val; omega

/-- ONE PIECE agrees with `blockEnergy`: what trip `k` stores, at any lane, is the energy of slab `k` of the two
    blocks, which is `blockEnergy` at row `k`. -/
theorem piece_agrees
    (arg1 : Memref sig .tc .vmem S8x256x128 .f32) (harg1 : arg1.IsWhole)
    (arg2 : Memref sig .tc .vmem S8x256x128 .f32) (harg2 : arg2.IsWhole)
    (x0 x1 : Vec Ideal S8x256x128 .f32) (k : Fin k0_t1_loop.trips) (x : (rowRect k).shape.Idx) :
    tripVal (F := Ideal) (View.readAt (Elt Ideal) arg1.view (slabRect k).toLoadRect (harg1.unread x0))
        (View.readAt (Elt Ideal) arg2.view (slabRect k).toLoadRect (harg2.unread x1)) x
      = blockEnergy x0 x1 ((rowRect k).emb x) := by
  rw [Cert.KernelIdeal.TripEnergy.tripVal_apply]
  have h1 : View.readAt (Elt Ideal) arg1.view (slabRect k).toLoadRect (harg1.unread x0) = View.ld x0 (slabRect k) :=
    (View.readAt_eq_ld arg1.view (harg1.unread x0) (slabRect k)).trans (by rw [harg1.read_unread])
  have h2 : View.readAt (Elt Ideal) arg2.view (slabRect k).toLoadRect (harg2.unread x1) = View.ld x1 (slabRect k) :=
    (View.readAt_eq_ld arg2.view (harg2.unread x1) (slabRect k)).trans (by rw [harg2.read_unread])
  rw [h1, h2]
  unfold blockEnergy
  rw [row_emb]
  exact congrArg₂ Cert.EnergySpec.energy (funext fun i => funext fun d => slab_apply k x0 i d)
    (funext fun i => funext fun d => slab_apply k x1 i d)

/-- EVERY PIECE of the loop's list agrees with `blockEnergy`, by induction over the trips. -/
theorem pb_agrees (𝒱 : Variants) (c : Dev nD) (bd : Option 𝒱.V) (i : grid0.Coords)
    (arg1 : Memref sig .tc .vmem S8x256x128 .f32) (harg1 : arg1.IsWhole)
    (arg2 : Memref sig .tc .vmem S8x256x128 .f32) (harg2 : arg2.IsWhole)
    (arg3 : Memref sig .tc .vmem S8x1x128 .f32) (harg3 : arg3.IsWhole)
    (x0 x1 : Vec Ideal S8x256x128 .f32) :
    ∀ (n : ℕ), ∀ p ∈ pb_k0_t1 (F := Ideal) 𝒱 c bd i arg1 harg1 arg2 harg2 arg3 harg3 (harg1.unread x0) (harg2.unread x1) n,
      ∀ x : p.1.shape.Idx, p.2 x = blockEnergy x0 x1 (p.1.emb x)
  | 0 => by
    rw [pb_k0_t1.eq_1]
    intro p hp
    exact absurd hp List.not_mem_nil
  | n + 1 => by
    rw [pb_k0_t1.eq_2]
    unfold pb_k0_t1Step
    split
    · rename_i h
      intro p hp
      rcases List.mem_append.mp hp with hp | hp
      · rw [tripL_eq] at hp
        obtain rfl := List.mem_singleton.mp hp
        intro x
        exact piece_agrees arg1 harg1 arg2 harg2 x0 x1 ⟨n, h⟩ x
      · exact pb_agrees 𝒱 c bd i arg1 harg1 arg2 harg2 arg3 harg3 x0 x1 n p hp
    · exact pb_agrees 𝒱 c bd i arg1 harg1 arg2 harg2 arg3 harg3 x0 x1 n

/-- THE BLOCK after the body is `blockEnergy` of the two input blocks: the pieces cover the block, and each is the
    tile of `blockEnergy` its rectangle names. -/
theorem out_eq (c : Dev nD) (i : grid0.Coords)
    (arg1 : Memref sig .tc .vmem S8x256x128 .f32) (harg1 : arg1.IsWhole)
    (arg2 : Memref sig .tc .vmem S8x256x128 .f32) (harg2 : arg2.IsWhole)
    (arg3 : Memref sig .tc .vmem S8x1x128 .f32) (harg3 : arg3.IsWhole)
    (x0 x1 : Vec Ideal S8x256x128 .f32) :
    out0_A_2 (F := Ideal) c i arg1 harg1 arg2 harg2 arg3 harg3 x0 x1 = blockEnergy x0 x1 := by
  unfold out0_A_2
  rw [View.read_writes_eq_canon _ _ _ (cover0_A_2 c i arg1 harg1 arg2 harg2 arg3 harg3 x0 x1)]
  funext y
  refine View.canon_apply_of_pieces (blockEnergy x0 x1) _ ?_ y (cover0_A_2 c i arg1 harg1 arg2 harg2 arg3 harg3 x0 x1 y)
  rw [run_pieces]
  exact pb_agrees Variants.none c none i arg1 harg1 arg2 harg2 arg3 harg3 x0 x1 _

end Cert.KernelIdeal.BlockValue

end
-- ==== Proof.ArrayValue.lean ====
/-
  From the blocks to the array. The region has two grid points; point `t` stages batch entries 8t … 8t + 7 of both
  argument arrays and writes back rows 8t … 8t + 7 of the [16, 1, 128] output array. Row `r` of an input block at
  point `t` is batch entry 8t + r of its array, the same batch entry the output block's row `r` is written to, so
  what point `t` writes back is block `t` of ONE function of the argument arrays, `arrayEnergy`; the two blocks cover
  the output array, which therefore ends holding that function.
-/
import proofs.«160626_j30021821399466_1_alg».proof.Proof.BlockValue

set_option maxRecDepth 16384

noncomputable section

namespace Cert.KernelIdeal.ArrayValue

open Idealize.ShloMosaic Idealize.ShloMosaic.ValueIdx Idealize.ShloMosaic.TcCoe
open Idealize.SL Idealize.SL.Sem
open Idealize.ShloMosaic.Pipeline (Dat)
open Cert.KernelIdeal Cert.KernelIdeal.Gen Cert.KernelIdeal.BlockValue

variable (m : (ℓ : Loc nD τ sig) → Buf (Elt Ideal) ℓ) (ρ : Dev nD → PrngReg)

/-- What the [16, 1, 128] output array holds after the region, as one function of the two argument arrays: at
    batch entry `b`, whatever the lane, the energy distance of entry `b` of the first against entry `b` of the second. -/
def arrayEnergy (a0 a1 : S16x256x128.Idx → EReal) : S16x1x128.Idx → EReal :=
  fun y => Cert.EnergySpec.energy (Cert.EnergySpec.rows a0 (y 0)) (Cert.EnergySpec.rows a1 (y 0))

/-- The printed index maps, decided over the two grid points: both input windows move with the output window
    along the batch axis and stay at block 0 on the other two axes. -/
theorem idx_facts : ∀ t : Fin cfg0.N,
    win0_0.index t (0 : Fin 3) = win0_2.index t (0 : Fin 3) ∧ win0_0.index t (1 : Fin 3) = 0 ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (1 : Fin 3) = 0 ∧ win0_2.index t (2 : Fin 3) = 0 ∧ win0_2.index t (0 : Fin 3) ≤ 1 :=
  (by decide +kernel : ∀ t : Fin grid0.N, _)

/-- Each of the two batch blocks is some point's. -/
theorem idx_onto : ∀ q : Fin 2, ∃ t : Fin cfg0.N, win0_2.index t = ![q.val, 0, 0] :=
  (by decide +kernel : ∀ q : Fin 2, ∃ t : Fin grid0.N, win0_2.index t = ![q.val, 0, 0])

/-- Row `r` of the first input's block at point `t` is batch entry (8 · block index + r) of the first argument
    array, which is the batch entry the output block's row `r` sits at. -/
theorem blk_rows0 (c : Dev nD) (t : Fin cfg0.N) (j : S8x1x128.Idx) :
    (fun (i : Fin 256) (d : Fin 128) => (iblk m c 0 t : Vec Ideal S8x256x128 .f32) (ix3 (j 0) i d))
      = Cert.EnergySpec.rows (V m c main_arg0) ((((cfg0.win 2).blk t).view.emb j) 0) := by
  obtain ⟨e0, e1, e2, -⟩ := idx_facts t
  funext i d
  show V m c main_arg0 (((cfg0.win 0).blk t).view.emb (ix3 (j 0) i d))
    = V m c main_arg0 (ix3 ((((cfg0.win 2).blk t).view.emb j) 0) i d)
  refine congrArg (V m c main_arg0) (funext fun a => Fin.ext ?_)
  match a with
  | ⟨0, _⟩ => show win0_0.index t (0 : Fin 3) * 8 + 1 * (j 0).val = win0_2.index t (0 : Fin 3) * 8 + 1 * (j 0).val; omega
  | ⟨1, _⟩ => show win0_0.index t (1 : Fin 3) * 256 + 1 * i.val = i.val; omega
  | ⟨2, _⟩ => show win0_0.index t (2 : Fin 3) * 128 + 1 * d.val = d.val; omega

/-- The same for the second input's block. -/
theorem blk_rows1 (c : Dev nD) (t : Fin cfg0.N) (j : S8x1x128.Idx) :
    (fun (i : Fin 256) (d : Fin 128) => (iblk m c 1 t : Vec Ideal S8x256x128 .f32) (ix3 (j 0) i d))
      = Cert.EnergySpec.rows (V m c main_arg1) ((((cfg0.win 2).blk t).view.emb j) 0) := by
  obtain ⟨-, -, -, e0, e1, e2, -⟩ := idx_facts t
  funext i d
  show V m c main_arg1 (((cfg0.win 1).blk t).view.emb (ix3 (j 0) i d))
    = V m c main_arg1 (ix3 ((((cfg0.win 2).blk t).view.emb j) 0) i d)
  refine congrArg (V m c main_arg1) (funext fun a => Fin.ext ?_)
  match a with
  | ⟨0, _⟩ => show win0_1.index t (0 : Fin 3) * 8 + 1 * (j 0).val = win0_2.index t (0 : Fin 3) * 8 + 1 * (j 0).val; omega
  | ⟨1, _⟩ => show win0_1.index t (1 : Fin 3) * 256 + 1 * i.val = i.val; omega
  | ⟨2, _⟩ => show win0_1.index t (2 : Fin 3) * 128 + 1 * d.val = d.val; omega

/-- WHAT POINT `t` WRITES BACK is block `t` of `arrayEnergy` of the argument arrays as the region finds them. -/
theorem flushed_eq (c : Dev nD) (t : Fin cfg0.N) :
    (dats m 0 c).flushed 2 t
      = ((cfg0.win 2).blk t).view.read (Elt Ideal) (arrayEnergy (V m c main_arg0) (V m c main_arg1)) := by
  show (cfg0.win 2).cut (grid0.coords t) ((dats m 0 c).after 2 t) = _
  rw [after0_2]
  unfold outsAt0
  rw [out_eq]
  funext j
  show blockEnergy (iblk m c 0 t) (iblk m c 1 t) j
    = arrayEnergy (V m c main_arg0) (V m c main_arg1) (((cfg0.win 2).blk t).view.emb j)
  unfold blockEnergy arrayEnergy
  exact congrArg₂ Cert.EnergySpec.energy (blk_rows0 m c t j) (blk_rows1 m c t j)

/-- An index of the output array is in point `t`'s block iff each coordinate is in the block's range on its axis. -/
theorem mem_blk (t : Fin cfg0.N) (i : S16x1x128.Idx) :
    i ∈ ((cfg0.win 2).blk t).view.set ↔ ∀ a : Fin 3, win0_2.index t a * S8x1x128.size a ≤ (i a).val
      ∧ (i a).val < win0_2.index t a * S8x1x128.size a + S8x1x128.size a := by
  show i ∈ ((View.whole main_v0).slice (win0_2.rect t)).set ↔ _
  rw [View.set_slice_whole, Rect.mem_set_unit]
  exact Iff.rfl

/-- Every index of the output array is in some point's block: batch entry `b` is in block `b / 8`. -/
theorem cover (i : S16x1x128.Idx) :
    ∃ t : Fin cfg0.N, (cfg0.win 2).flush t = true ∧ i ∈ ((cfg0.win 2).blk t).view.set := by
  have hi0 : (i 0).val < 16 := (i 0).isLt
  have hi1 : (i 1).val < 1 := (i 1).isLt
  have hi2 : (i 2).val < 128 := (i 2).isLt
  obtain ⟨t, ht⟩ := idx_onto ⟨(i 0).val / 8, by omega⟩
  have q0 : win0_2.index t (0 : Fin 3) = (i 0).val / 8 := congrFun ht 0
  have q1 : win0_2.index t (1 : Fin 3) = 0 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 8 ≤ (i 0).val ∧ (i 0).val < win0_2.index t (0 : Fin 3) * 8 + 8; omega
  | ⟨1, _⟩ => show win0_2.index t (1 : Fin 3) * 1 ≤ (i 1).val ∧ (i 1).val < win0_2.index t (1 : Fin 3) * 1 + 1; omega
  | ⟨2, _⟩ => show win0_2.index t (2 : Fin 3) * 128 ≤ (i 2).val ∧ (i 2).val < win0_2.index t (2 : Fin 3) * 128 + 128; omega

/-- THE OUTPUT ARRAY after the region is `arrayEnergy` of the argument arrays: the two blocks cover it. -/
theorem final (c : Dev nD) :
    (dats m 0 c).arrAt 2 cfg0.N = arrayEnergy (V m c main_arg0) (V m c main_arg1) :=
  (dats m 0 c).arrAt_eq_of_cover 2 (arrayEnergy (V m c main_arg0) (V m c main_arg1))
    (fun t _ => flushed_eq m c t) cover

end Cert.KernelIdeal.ArrayValue

end
-- ==== Proof.KernelRun.lean ====
/-
  The kernel program's run, read: after the region the program slices lane 0 of the [16, 1, 128] output array and
  reshapes the [16, 1, 1] slice to [16], so entry `b` of the result is the output array at (b, 0, 0): the energy
  distance of batch entry `b`. Every weakly fair execution ends with the result at that function of the argument
  arrays, and the argument arrays unchanged.
-/
import proofs.«160626_j30021821399466_1_alg».proof.Proof.ArrayValue
import Idealize.ShloMosaic.Lib.StableHlo.Run

set_option maxRecDepth 16384

noncomputable section

namespace Cert.KernelIdeal.KernelRun

open Idealize.ShloMosaic Idealize.ShloMosaic.ValueIdx Idealize.ShloMosaic.TcCoe Idealize.ShloMosaic.StableHlo
open Idealize.SL Idealize.SL.Sem
open Idealize.ShloMosaic.Pipeline (Dat)
open Cert.KernelIdeal Cert.KernelIdeal.Gen Cert.KernelIdeal.ArrayValue

variable (m : (ℓ : Loc nD τ sig) → Buf (Elt Ideal) ℓ) (ρ : Dev nD → PrngReg)

/-- Lane 0 of the output array, as a [16] array, is the specification's result: entry `b` is the array at (b, 0, 0). -/
theorem lane0_eq (A : S16x1x128.Idx → EReal) (b : Fin 16) :
    shapeCast S16 (extractStridedSlice S16x1x1 ![0, 0, 0] A slices_S16x1x128_S16x1x1_0_0_0) shapeCasts_S16x1x1_S16 (ix1 b)
      = A (ix3 b (0 : Fin 1) (0 : Fin 128)) := by
  refine (shapeCast_apply _ _ (ix1 b) (ix3 b (0 : Fin 1) (0 : Fin 1)) ?_).trans ?_
  · rw [Shape.rowMajor_val_three, Shape.rowMajor_val_one]
    show (b.val * 1 + 0) * 1 + 0 = b.val
    omega
  refine extractStridedSlice_apply _ _ _ (ix3 b (0 : Fin 1) (0 : Fin 1)) (ix3 b (0 : Fin 1) (0 : Fin 128)) fun a => ?_
  match a with
  | ⟨0, _⟩ => show b.val = 0 + b.val; omega
  | ⟨1, _⟩ => rfl
  | ⟨2, _⟩ => rfl

/-- WHAT THE TWO OPERATIONS AFTER THE REGION LEAVE in the result: the specification's result of the argument arrays. -/
theorem tail_eq (c : Dev nD) :
    Pipeline.afterTail₀ cfgs (dats m) 0 (V0 m) [hostOps1] c main_v2
      = Cert.EnergySpec.result (m ((c : Thread nD τ).loc main_arg0)) (m ((c : Thread nD τ).loc main_arg1)) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.tc.devRef main_v0)
      = arrayEnergy (m ((c : Thread nD τ).loc main_arg0)) (m ((c : Thread nD τ).loc main_arg1)) :=
    (Pipeline.withArrays_arr spec0 launch0.win.arr_inj c _ _ 2).trans (final m c)
  rw [hw]
  funext j
  obtain ⟨b, rfl⟩ : ∃ b : Fin 16, j = ix1 b := ⟨j 0, eq_ix1 j⟩
  exact lane0_eq _ b

/-- THE RUN, re-posted: the result at the specification's function of the arguments, the arguments unchanged. -/
theorem run : θ_run defs (onTc (τ := τ) (main (F := Ideal))) ⟨m, fun _ => 0, ρ⟩ (fun r => ∀ c : Dev nD,
      r.2.mem ((c.tc : Thread nD τ).loc main_v2)
        = Cert.EnergySpec.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_v2 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KernelRun

end
-- ==== Proof.lean ====
/-
  Energy distance of two batches of point clouds: a kernel that tiles the pairwise sums against the textbook formula.

  For each of 16 batch entries, with rows a_i of the first argument and c_j of the second (256 rows of 128 numbers),
  both programs compute
      L(a, c) / 65536 − ½ · (L(c, c) / 65536 + L(a, a) / 65536),    L(u, w) = Σ_i Σ_j Σ_d |u_i,d − w_j,d|.
  The reference forms each L as one sum over all row pairs and divides by 65536. The kernel walks the batch entries of
  a block in a loop; per entry it cuts the left rows into four runs of 64, sums |u − w| over lanes, right rows and the
  run's rows, adds the four totals onto zero, and multiplies by the constant 2⁻¹⁶; it stores the combination across
  128 lanes of an output row, and the program returns lane 0 of every row.

  Over the extended reals the two agree with no assumption on the inputs: a sum may be regrouped and reordered
  (addition is commutative and associative there), adding the zero the totals start from changes nothing, and dividing
  by 65536 is multiplying by 2⁻¹⁶ at every extended real, the infinite ones included. The outer combination has the
  same shape on both sides, so no distributive law is used and the finiteness precondition is never opened.

  The modules: EnergySpec states the function; RefEnergy reads the reference's operations down to it; TripValue and
  TripEnergy say what one loop trip stores; TripPieces, BlockValue and ArrayValue carry that through the loop's
  stores, the output block and the two blocks of the output array; KernelRun reads the two operations after the region.
-/
import proofs.«160626_j30021821399466_1_alg».proof.Defs
import proofs.«160626_j30021821399466_1_alg».proof.Proof.Gen.Kernel
import proofs.«160626_j30021821399466_1_alg».proof.Proof.Gen.Kernel.Skeleton
import proofs.«160626_j30021821399466_1_alg».proof.Proof.Gen.Kernel.Loops
import proofs.«160626_j30021821399466_1_alg».proof.Proof.Gen.Kernel.Launch
import proofs.«160626_j30021821399466_1_alg».proof.Proof.Gen.Kernel.Points
import proofs.«160626_j30021821399466_1_alg».proof.Proof.Gen.Kernel.Frame
import proofs.«160626_j30021821399466_1_alg».proof.Proof.Gen.KernelIdeal
import proofs.«160626_j30021821399466_1_alg».proof.Proof.Gen.KernelIdeal.Skeleton
import proofs.«160626_j30021821399466_1_alg».proof.Proof.Gen.KernelIdeal.Loops
import proofs.«160626_j30021821399466_1_alg».proof.Proof.Gen.KernelIdeal.Launch
import proofs.«160626_j30021821399466_1_alg».proof.Proof.Gen.KernelIdeal.Points
import proofs.«160626_j30021821399466_1_alg».proof.Proof.Gen.KernelIdeal.Frame
import proofs.«160626_j30021821399466_1_alg».proof.Proof.Gen.ReferenceIdeal
import proofs.«160626_j30021821399466_1_alg».proof.Proof.Gen.ReferenceIdeal.Run
import proofs.«160626_j30021821399466_1_alg».proof.Proof.Gen.ReferenceIdeal.Read
import proofs.«160626_j30021821399466_1_alg».proof.Proof.Gen.Pre_finite_inputs
import proofs.«160626_j30021821399466_1_alg».proof.Proof.RefEnergy
import proofs.«160626_j30021821399466_1_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs to the end and leaves its arguments alone. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation, so there is nothing to preserve. -/
theorem preserves : Cert.preserves_Kernel_KernelIdeal := trivial

/-- From memories that agree on the two arguments, the idealized kernel ends with the energy distances of the batch
    entries in its result, and the idealized reference ends with its composed term, which read down to the same
    function of the same arguments. -/
theorem algebraic : Cert.algebraic_KernelIdeal_ReferenceIdeal := by
  intro m ρ m' ρ' _ hagree
  refine ⟨fun c => Cert.EnergySpec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.ReferenceIdeal.RefEnergy.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
